-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S1024x4096 : Shape := ⟨2, ![1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S4x4096x1024 .f32) (main_arg1 : FVec F S4096x1024 .f32) (main_arg2 : FVec F S1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Kernel.lean ====
abbrev S4x4096x1024 : Shape := ⟨3, ![4, 4096, 1024]⟩
abbrev S4096x1024 : Shape := ⟨2, ![4096, 1024]⟩
abbrev S1024x4096 : Shape := ⟨2, ![1024, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1x4096 : Shape := ⟨2, ![1, 4096]⟩
abbrev S16384x1024 : Shape := ⟨2, ![16384, 1024]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩
abbrev S256x4096 : Shape := ⟨2, ![256, 4096]⟩

abbrev nBuf : Space → Nat
  | .hbm => 60
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024x4096, .f32⟩
  | .hbm, ⟨3, _⟩ => ⟨S4096, .i32⟩
  | .hbm, ⟨4, _⟩ => ⟨S4096x1, .i32⟩
  | .hbm, ⟨5, _⟩ => ⟨S1024, .i32⟩
  | .hbm, ⟨6, _⟩ => ⟨S1x1024, .i32⟩
  | .hbm, ⟨7, _⟩ => ⟨S_, .i32⟩
  | .hbm, ⟨8, _⟩ => ⟨S1x1024, .i32⟩
  | .hbm, ⟨9, _⟩ => ⟨S1x1024, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1024, .i32⟩
  | .hbm, ⟨14, _⟩ => ⟨S4096x1024, .i32⟩
  | .hbm, ⟨15, _⟩ => ⟨S4096x1024, .i1⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S4096x1024, .i1⟩
  | .hbm, ⟨20, _⟩ => ⟨S4096x1024, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x1024, .i1⟩
  | .hbm, ⟨25, _⟩ => ⟨S4096x1024, .i1⟩
  | .hbm, ⟨26, _⟩ => ⟨S4096x1024, .f32⟩
  | .hbm, ⟨27, _⟩ => ⟨S1024, .i32⟩
  | .hbm, ⟨28, _⟩ => ⟨S1024x1, .i32⟩
  | .hbm, ⟨29, _⟩ => ⟨S4096, .i32⟩
  | .hbm, ⟨30, _⟩ => ⟨S1x4096, .i32⟩
  | .hbm, ⟨31, _⟩ => ⟨S_, .i32⟩
  | .hbm, ⟨32, _⟩ => ⟨S1x4096, .i32⟩
  | .hbm, ⟨33, _⟩ => ⟨S1x4096, .i32⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x4096, .i32⟩
  | .hbm, ⟨38, _⟩ => ⟨S1024x4096, .i32⟩
  | .hbm, ⟨39, _⟩ => ⟨S1024x4096, .i1⟩
  | .hbm, ⟨40, _⟩ => ⟨S_, .i32⟩
  | .hbm, ⟨41, _⟩ => ⟨S1x4096, .i32⟩
  | .hbm, ⟨42, _⟩ => ⟨S1x4096, .i1⟩
  | .hbm, ⟨43, _⟩ => ⟨S1024x4096, .i1⟩
  | .hbm, ⟨44, _⟩ => ⟨S1024x4096, .i1⟩
  | .hbm, ⟨45, _⟩ => ⟨S_, .i32⟩
  | .hbm, ⟨46, _⟩ => ⟨S1024x1, .i32⟩
  | .hbm, ⟨47, _⟩ => ⟨S1024x1, .i1⟩
  | .hbm, ⟨48, _⟩ => ⟨S1024x4096, .i1⟩
  | .hbm, ⟨49, _⟩ => ⟨S1024x4096, .i1⟩
  | .hbm, ⟨50, _⟩ => ⟨S1024x4096, .f32⟩
  | .hbm, ⟨51, _⟩ => ⟨S4096x1024, .f32⟩
  | .hbm, ⟨52, _⟩ => ⟨S4096x1024, .bf16⟩
  | .hbm, ⟨53, _⟩ => ⟨S1024x4096, .f32⟩
  | .hbm, ⟨54, _⟩ => ⟨S1024x4096, .bf16⟩
  | .hbm, ⟨55, _⟩ => ⟨S1024x4096, .bf16⟩
  | .hbm, ⟨56, _⟩ => ⟨S4096x1024, .bf16⟩
  | .hbm, ⟨57, _⟩ => ⟨S16384x1024, .f32⟩
  | .hbm, ⟨58, _⟩ => ⟨S16384x1024, .f32⟩
  | .hbm, ⟨59, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S4096x1 : S_.BroadcastsInDim S4096x1 (![] : Fin 0 → Fin S4096x1.rank)
  bcast_S1x1024_S4096x1024_0_1 : S1x1024.BroadcastsInDim S4096x1024 (![0, 1] : Fin 2 → Fin S4096x1024.rank)
  bcast_S4096x1_S4096x1024_0_1 : S4096x1.BroadcastsInDim S4096x1024 (![0, 1] : Fin 2 → Fin S4096x1024.rank)
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  bitsLt_bf16_f32 : FTy.bits .bf16 < FTy.bits .f32
  transposes_S4096x1024_S1024x4096_1_0 : S4096x1024.Transposes [1, 0] S1024x4096
  transposes_S1024x4096_S4096x1024_1_0 : S1024x4096.Transposes [1, 0] S4096x1024
  shapeCasts_S4x4096x1024_S16384x1024 : S4x4096x1024.ShapeCasts S16384x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S256x1024_o0_0_S256x64 : S256x1024.Slices ![0, 0] S256x64
  reduces_S256x64_S256 : S256x64.Reduces [1] S256
  shapeCasts_S256_S256x1 : S256.ShapeCasts S256x1
  broadcasts_S256x1_S256x64 : S256x1.Broadcasts S256x64
  slices_S256x1024_o0_64_S256x64 : S256x1024.Slices ![0, 64] S256x64
  slices_S256x1024_o0_128_S256x64 : S256x1024.Slices ![0, 128] S256x64
  slices_S256x1024_o0_192_S256x64 : S256x1024.Slices ![0, 192] S256x64
  slices_S256x1024_o0_256_S256x64 : S256x1024.Slices ![0, 256] S256x64
  slices_S256x1024_o0_320_S256x64 : S256x1024.Slices ![0, 320] S256x64
  slices_S256x1024_o0_384_S256x64 : S256x1024.Slices ![0, 384] S256x64
  slices_S256x1024_o0_448_S256x64 : S256x1024.Slices ![0, 448] S256x64
  slices_S256x1024_o0_512_S256x64 : S256x1024.Slices ![0, 512] S256x64
  slices_S256x1024_o0_576_S256x64 : S256x1024.Slices ![0, 576] S256x64
  slices_S256x1024_o0_640_S256x64 : S256x1024.Slices ![0, 640] S256x64
  slices_S256x1024_o0_704_S256x64 : S256x1024.Slices ![0, 704] S256x64
  slices_S256x1024_o0_768_S256x64 : S256x1024.Slices ![0, 768] S256x64
  slices_S256x1024_o0_832_S256x64 : S256x1024.Slices ![0, 832] S256x64
  slices_S256x1024_o0_896_S256x64 : S256x1024.Slices ![0, 896] S256x64
  slices_S256x1024_o0_960_S256x64 : S256x1024.Slices ![0, 960] S256x64
  concatenates_S256x64_S256x64_S256x64_S256x64_S256x64_S256x64_S256x64_S256x64_S256x64_S256x64_S256x64_S256x64_S256x64_S256x64_S256x64_S256x64_S256x1024_d1 : Shape.Concatenates [S256x64, S256x64, S256x64, S256x64, S256x64, S256x64, S256x64, S256x64, S256x64, S256x64, S256x64, S256x64, S256x64, S256x64, S256x64, S256x64] S256x1024 1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S16384x1024_S4x4096x1024 : S16384x1024.ShapeCasts S4x4096x1024
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v46) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S1024x4096 : Shape := ⟨2, ![1024, 4096]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S_ : Shape := ⟨0, ![]⟩
abbrev S1024x1 : Shape := ⟨2, ![1024, 1]⟩
abbrev S1x4096 : Shape := ⟨2, ![1, 4096]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S4x4096x4096 : Shape := ⟨3, ![4, 4096, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S1024x4096, .f32⟩
  | .hbm, ⟨3, _⟩ => ⟨S4096, .i32⟩
  | .hbm, ⟨4, _⟩ => ⟨S4096x1, .i32⟩
  | .hbm, ⟨5, _⟩ => ⟨S1024, .i32⟩
  | .hbm, ⟨6, _⟩ => ⟨S1x1024, .i32⟩
  | .hbm, ⟨7, _⟩ => ⟨S_, .i32⟩
  | .hbm, ⟨8, _⟩ => ⟨S1x1024, .i32⟩
  | .hbm, ⟨9, _⟩ => ⟨S1x1024, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1024, .i32⟩
  | .hbm, ⟨14, _⟩ => ⟨S4096x1024, .i32⟩
  | .hbm, ⟨15, _⟩ => ⟨S4096x1024, .i1⟩
  | .hbm, ⟨16, _⟩ => ⟨S_, .i32⟩
  | .hbm, ⟨17, _⟩ => ⟨S1x1024, .i32⟩
  | .hbm, ⟨18, _⟩ => ⟨S1x1024, .i1⟩
  | .hbm, ⟨19, _⟩ => ⟨S4096x1024, .i1⟩
  | .hbm, ⟨20, _⟩ => ⟨S4096x1024, .i1⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S4096x1024, .i1⟩
  | .hbm, ⟨25, _⟩ => ⟨S4096x1024, .i1⟩
  | .hbm, ⟨26, _⟩ => ⟨S4096x1024, .f32⟩
  | .hbm, ⟨27, _⟩ => ⟨S1024, .i32⟩
  | .hbm, ⟨28, _⟩ => ⟨S1024x1, .i32⟩
  | .hbm, ⟨29, _⟩ => ⟨S4096, .i32⟩
  | .hbm, ⟨30, _⟩ => ⟨S1x4096, .i32⟩
  | .hbm, ⟨31, _⟩ => ⟨S_, .i32⟩
  | .hbm, ⟨32, _⟩ => ⟨S1x4096, .i32⟩
  | .hbm, ⟨33, _⟩ => ⟨S1x4096, .i32⟩
  | .hbm, ⟨34, _⟩ => ⟨S_, .i32⟩
  | .hbm, ⟨35, _⟩ => ⟨S1024x1, .i32⟩
  | .hbm, ⟨36, _⟩ => ⟨S1024x1, .i32⟩
  | .hbm, ⟨37, _⟩ => ⟨S1024x4096, .i32⟩
  | .hbm, ⟨38, _⟩ => ⟨S1024x4096, .i32⟩
  | .hbm, ⟨39, _⟩ => ⟨S1024x4096, .i1⟩
  | .hbm, ⟨40, _⟩ => ⟨S_, .i32⟩
  | .hbm, ⟨41, _⟩ => ⟨S1x4096, .i32⟩
  | .hbm, ⟨42, _⟩ => ⟨S1x4096, .i1⟩
  | .hbm, ⟨43, _⟩ => ⟨S1024x4096, .i1⟩
  | .hbm, ⟨44, _⟩ => ⟨S1024x4096, .i1⟩
  | .hbm, ⟨45, _⟩ => ⟨S_, .i32⟩
  | .hbm, ⟨46, _⟩ => ⟨S1024x1, .i32⟩
  | .hbm, ⟨47, _⟩ => ⟨S1024x1, .i1⟩
  | .hbm, ⟨48, _⟩ => ⟨S1024x4096, .i1⟩
  | .hbm, ⟨49, _⟩ => ⟨S1024x4096, .i1⟩
  | .hbm, ⟨50, _⟩ => ⟨S1024x4096, .f32⟩
  | .hbm, ⟨51, _⟩ => ⟨S4x4096x16x64, .f32⟩
  | .hbm, ⟨52, _⟩ => ⟨S_, .f32⟩
  | .hbm, ⟨53, _⟩ => ⟨S4x4096x16, .f32⟩
  | .hbm, ⟨54, _⟩ => ⟨S4x4096x16x1, .f32⟩
  | .hbm, ⟨55, _⟩ => ⟨S_, .f32⟩
  | .hbm, ⟨56, _⟩ => ⟨S4x4096x16x1, .f32⟩
  | .hbm, ⟨57, _⟩ => ⟨S4x4096x16x1, .f32⟩
  | .hbm, ⟨58, _⟩ => ⟨S4x4096x16x64, .f32⟩
  | .hbm, ⟨59, _⟩ => ⟨S4x4096x16x64, .f32⟩
  | .hbm, ⟨60, _⟩ => ⟨S4x4096x16x64, .f32⟩
  | .hbm, ⟨61, _⟩ => ⟨S_, .f32⟩
  | .hbm, ⟨62, _⟩ => ⟨S4x4096x16, .f32⟩
  | .hbm, ⟨63, _⟩ => ⟨S4x4096x16x1, .f32⟩
  | .hbm, ⟨64, _⟩ => ⟨S_, .f32⟩
  | .hbm, ⟨65, _⟩ => ⟨S4x4096x16x1, .f32⟩
  | .hbm, ⟨66, _⟩ => ⟨S4x4096x16x1, .f32⟩
  | .hbm, ⟨67, _⟩ => ⟨S4x4096x16x64, .f32⟩
  | .hbm, ⟨68, _⟩ => ⟨S4x4096x16x64, .f32⟩
  | .hbm, ⟨69, _⟩ => ⟨S_, .f32⟩
  | .hbm, ⟨70, _⟩ => ⟨S4x4096x16x1, .f32⟩
  | .hbm, ⟨71, _⟩ => ⟨S4x4096x16x1, .f32⟩
  | .hbm, ⟨72, _⟩ => ⟨S4x4096x16x1, .f32⟩
  | .hbm, ⟨73, _⟩ => ⟨S4x4096x16x64, .f32⟩
  | .hbm, ⟨74, _⟩ => ⟨S4x4096x16x64, .f32⟩
  | .hbm, ⟨75, _⟩ => ⟨S4x4096x1024, .f32⟩
  | .hbm, ⟨76, _⟩ => ⟨S4096x1024, .f32⟩
  | .hbm, ⟨77, _⟩ => ⟨S4x4096x4096, .f32⟩
  | .hbm, ⟨78, _⟩ => ⟨S_, .f32⟩
  | .hbm, ⟨79, _⟩ => ⟨S4x4096x4096, .f32⟩
  | .hbm, ⟨80, _⟩ => ⟨S4x4096x4096, .f32⟩
  | .hbm, ⟨81, _⟩ => ⟨S4x4096x4096, .f32⟩
  | .hbm, ⟨82, _⟩ => ⟨S1024x4096, .f32⟩
  | .hbm, ⟨83, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_10 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call0_cst : Ref sig .tc := ⟨.hbm, 78, rfl⟩
abbrev main_call0_v0 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S_S4096x1 : S_.BroadcastsInDim S4096x1 (![] : Fin 0 → Fin S4096x1.rank)
  bcast_S1x1024_S4096x1024_0_1 : S1x1024.BroadcastsInDim S4096x1024 (![0, 1] : Fin 2 → Fin S4096x1024.rank)
  bcast_S4096x1_S4096x1024_0_1 : S4096x1.BroadcastsInDim S4096x1024 (![0, 1] : Fin 2 → Fin S4096x1024.rank)
  bcast_S1024_S1024x1_0 : S1024.BroadcastsInDim S1024x1 (![0] : Fin 1 → Fin S1024x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S1024x1 : S_.BroadcastsInDim S1024x1 (![] : Fin 0 → Fin S1024x1.rank)
  bcast_S1x4096_S1024x4096_0_1 : S1x4096.BroadcastsInDim S1024x4096 (![0, 1] : Fin 2 → Fin S1024x4096.rank)
  bcast_S1024x1_S1024x4096_0_1 : S1024x1.BroadcastsInDim S1024x4096 (![0, 1] : Fin 2 → Fin S1024x4096.rank)
  shapeCasts_S4x4096x1024_S4x4096x16x64 : S4x4096x1024.ShapeCasts S4x4096x16x64
  reducesTo_S4x4096x16x64_S4x4096x16_d3 : S4x4096x16x64.ReducesTo [3] S4x4096x16
  h_S_ : 0 < S_.numel
  bcast_S4x4096x16_S4x4096x16x1_0_1_2 : S4x4096x16.BroadcastsInDim S4x4096x16x1 (![0, 1, 2] : Fin 3 → Fin S4x4096x16x1.rank)
  bcast_S_S4x4096x16x1 : S_.BroadcastsInDim S4x4096x16x1 (![] : Fin 0 → Fin S4x4096x16x1.rank)
  bcast_S4x4096x16x1_S4x4096x16x64_0_1_2_3 : S4x4096x16x1.BroadcastsInDim S4x4096x16x64 (![0, 1, 2, 3] : Fin 4 → Fin S4x4096x16x64.rank)
  shapeCasts_S4x4096x16x64_S4x4096x1024 : S4x4096x16x64.ShapeCasts S4x4096x1024
  bcast_S_S4x4096x4096 : S_.BroadcastsInDim S4x4096x4096 (![] : Fin 0 → Fin S4x4096x4096.rank)
  dot_S4x4096x1024_S4096x1024_S4x4096x4096_2_1_01_0_n_n_wf : DotDims.WF S4x4096x1024 S4096x1024 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The function both programs compute, written once on the extended reals.

  A row of 1024 entries is cut into 16 heads of 64.  Each head is normalised by itself: its mean is the sum of
  its 64 entries divided by 64, its variance the mean of the squared deviations, and each entry becomes its
  deviation times the reciprocal square root of (variance + offset).  The normalised row is multiplied into the
  first (masked) weight matrix, the result clipped below at zero and squared, and that is multiplied into the
  second (masked) weight matrix.  The two constants are kept as the 32-bit words both programs carry; they are
  never evaluated.
-/
import Idealize.ShloMosaic.Lib.ValueIdx
import Idealize.ShloMosaic.PureOps.Ideal.Laws

noncomputable section

namespace Cert.HeadNormMlp

open Idealize.ShloMosaic

/-- The divisor 64 and the variance offset, as words. -/
def c64 : EReal := Ideal.ofBits .f32 0x42800000#32
def cEps : EReal := Ideal.ofBits .f32 0x3727C5AC#32

/-- The mean of 64 entries: their sum, divided by the word for 64. -/
def mean64 (r : Fin 64 → EReal) : EReal := Ideal.div (∑ j : Fin 64, r j) c64

/-- Entry `d` of a head after normalisation. -/
def normEntry (r : Fin 64 → EReal) (d : Fin 64) : EReal :=
  (r d - mean64 r) * Ideal.rsqrt (mean64 (fun j => (r j - mean64 r) * (r j - mean64 r)) + cEps)

/-- Column `64·h + j` of a row: entry `j` of head `h`. -/
def headCol (h : Fin 16) (j : Fin 64) : Fin 1024 := ⟨64 * h.val + j.val, by have := h.isLt; have := j.isLt; omega⟩

/-- The head a column lies in, and its place there. -/
def headOf (k : Fin 1024) : Fin 16 := ⟨k.val / 64, by have := k.isLt; omega⟩
def laneOf (k : Fin 1024) : Fin 64 := ⟨k.val % 64, by have := k.isLt; omega⟩

theorem headCol_headOf_laneOf (k : Fin 1024) : headCol (headOf k) (laneOf k) = k :=
  Fin.ext (by show 64 * (k.val / 64) + k.val % 64 = k.val; omega)

/-- The row with every head normalised. -/
def normRow (row : Fin 1024 → EReal) (k : Fin 1024) : EReal :=
  normEntry (fun j => row (headCol (headOf k) j)) (laneOf k)

/-- The first product: the normalised row against row `f` of the first weight matrix. -/
def hiddenEntry (row : Fin 1024 → EReal) (W₁ : Fin 4096 → Fin 1024 → EReal) (f : Fin 4096) : EReal :=
  ∑ k : Fin 1024, normRow row k * W₁ f k

/-- Clipped below at zero, then squared. -/
def reluSq (z : EReal) : EReal := max z 0 * max z 0

/-- Entry `e` of the result for one row. -/
def mlpEntry (row : Fin 1024 → EReal) (W₁ : Fin 4096 → Fin 1024 → EReal) (W₂ : Fin 1024 → Fin 4096 → EReal)
    (e : Fin 1024) : EReal :=
  ∑ f : Fin 4096, reluSq (hiddenEntry row W₁ f) * W₂ e f

end Cert.HeadNormMlp

end
-- ==== Proof.ColumnForms.lean ====
/-
  Three small readings of arrays with a unit axis, at an entry.

  A vector of length `a` viewed as an `a × 1` column has, in row `p`, the vector's entry `p`.  A column spread
  across `b` columns has, at `(p, d)`, the column's entry in row `p`.  And summing an `a × b` array along its
  second axis gives, at `p`, the sum over `j` of the entries `(p, j)`.
-/
import Idealize.ShloMosaic.Lib.Pipeline.Value
import Idealize.ShloMosaic.Lib.ValueIdx
import Idealize.ShloMosaic.PureOps.Ideal.Laws

noncomputable section

namespace Cert.HeadNormMlp

open Idealize.ShloMosaic Idealize.ShloMosaic.ValueIdx

variable {α : Type} {a b : ℕ}

/-- Row `p` of the column is entry `p` of the vector: both sit at position `p` in row-major order. -/
theorem column_of_vector_apply (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) :=
  shapeCast_apply v h (ix2 p z) (ix1 p) (by
    rw [Shape.rowMajor_val_one, Shape.rowMajor_val_two]
    show p.val = p.val * 1 + z.val
    have := z.isLt
    omega)

/-- A column spread across the row: entry `(p, d)` is the column's entry in row `p`. -/
theorem spread_column_apply (hb : b ≠ 1) (ha : a ≠ 1) (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p ⟨0, Nat.one_pos⟩) :=
  broadcastTo_apply v h (ix2 p d) (ix2 p ⟨0, Nat.one_pos⟩) (fun ax => by
    match ax with
    | ⟨0, _⟩ => show p.val = if a = 1 then 0 else p.val; rw [if_neg ha]
    | ⟨1, _⟩ => show 0 = if (1 : ℕ) = 1 then 0 else d.val; rw [if_pos rfl])

/-- The index the row sum inserts is `(p, j)`. -/
theorem rowsum_lift (h : (⟨2, ![a, b]⟩ : Shape).Reduces [1] ⟨1, ![a]⟩) (p : Fin a) (j : Fin b) :
    h.lift (ix1 p) j = ix2 p j :=
  funext fun ax => Fin.ext (by
    match ax with
    | ⟨0, _⟩ => rfl
    | ⟨1, _⟩ => rfl)

/-- The lane sum of an `a × b` array at row `p`: the sum over `j` of its entries `(p, j)`. -/
theorem rowsum_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ x acc h hφ hacc (ix1 p) = ∑ j : Fin b, x (ix2 p j) := by
  rw [Ideal.multiReduction_add_single]
  exact Finset.sum_congr rfl fun j _ => congrArg x (rowsum_lift h p j)

end Cert.HeadNormMlp

end
-- ==== Proof.NormBlock.lean ====
/-
  One head of a 256-row block, normalised, read at an entry.

  The kernel treats each head the same way: a 256 × 64 slice `xs` of the block; its row sums, divided by 64, as a
  column of means; the deviations `xs − mean`; the row sums of their squares, divided by 64, as a column of
  variances; and the deviations times the reciprocal square root of (variance + offset).  Written here once as a
  function of the slice, and read at entry `(p, d)`: it is the normalised entry `d` of row `p` of the slice.
-/
import proofs.«103041_j13245679140988_1_alg».proof.Proof.Gen.KernelIdeal
import proofs.«103041_j13245679140988_1_alg».proof.Proof.Spec
import proofs.«103041_j13245679140988_1_alg».proof.Proof.ColumnForms

noncomputable section

namespace Cert.KernelIdeal.HeadNorm

open Idealize.ShloMosaic Idealize.ShloMosaic.ValueIdx Cert.KernelIdeal Cert.HeadNormMlp

/-- The column of row means of a 256 × 64 array: row sums as a column, divided by the word for 64. -/
def meanCol (xs : FVec Ideal S256x64 .f32) : FVec Ideal S256x1 .f32 :=
  divf (shapeCast S256x1 (multiReduction .add [1] S256 xs 0x00000000#32 Gen.reduces_S256x64_S256 (.inl rfl) rfl)
      Gen.shapeCasts_S256_S256x1)
    (broadcast S256x1 (Scalar.ofBits .f32 0x42800000#32))

/-- The deviations of a slice from its row means. -/
def devBlock (xs : FVec Ideal S256x64 .f32) : FVec Ideal S256x64 .f32 :=
  subf xs (broadcastTo S256x64 (meanCol xs) Gen.broadcasts_S256x1_S256x64)

/-- The slice normalised row by row. -/
def normBlock (xs : FVec Ideal S256x64 .f32) : FVec Ideal S256x64 .f32 :=
  mulf (devBlock xs)
    (broadcastTo S256x64
      (rsqrt (addf (meanCol (mulf (devBlock xs) (devBlock xs))) (broadcast S256x1 (Scalar.ofBits .f32 0x3727C5AC#32))))
      Gen.broadcasts_S256x1_S256x64)

/-- Row `p` of the column of means is the mean of row `p`. -/
theorem meanCol_apply (xs : FVec Ideal S256x64 .f32) (p : Fin 256) (z : Fin 1) :
    meanCol xs (ix2 p z) = mean64 (fun j => xs (ix2 p j)) := by
  unfold meanCol
  rw [divf_apply, column_of_vector_apply, broadcast_apply]
  exact congrArg (fun s => Ideal.div s c64)
    (rowsum_apply xs 0x00000000#32 Gen.reduces_S256x64_S256 (.inl rfl) rfl p)

/-- Entry `(p, j)` of the deviations. -/
theorem devBlock_apply (xs : FVec Ideal S256x64 .f32) (p : Fin 256) (j : Fin 64) :
    devBlock xs (ix2 p j) = xs (ix2 p j) - mean64 (fun j => xs (ix2 p j)) := by
  unfold devBlock
  rw [subf_apply, spread_column_apply (by decide) (by decide), meanCol_apply]

/-- Entry `(p, d)` of the normalised slice is the normalised entry `d` of the slice's row `p`. -/
theorem normBlock_apply (xs : FVec Ideal S256x64 .f32) (p : Fin 256) (d : Fin 64) :
    normBlock xs (ix2 p d) = normEntry (fun j => xs (ix2 p j)) d := by
  unfold normBlock
  rw [mulf_apply, devBlock_apply, spread_column_apply (by decide) (by decide)]
  show _ * Ideal.rsqrt (meanCol (mulf (devBlock xs) (devBlock xs)) (ix2 p ⟨0, Nat.one_pos⟩) + cEps) = _
  rw [meanCol_apply]
  have hsq : (fun j : Fin 64 => mulf (devBlock xs) (devBlock xs) (ix2 p j))
      = fun j : Fin 64 => (xs (ix2 p j) - mean64 (fun j => xs (ix2 p j))) * (xs (ix2 p j) - mean64 (fun j => xs (ix2 p j))) :=
    funext fun j => by rw [mulf_apply, devBlock_apply]
  rw [hsq]
  rfl

end Cert.KernelIdeal.HeadNorm

end
-- ==== Proof.NormRows.lean ====
/-
  The kernel's normalised block, read at a column.

  The body cuts its 256 × 1024 block into sixteen 256 × 64 slices at columns 0, 64, …, 960, normalises each and lays
  the sixteen results side by side again.  So column `q` of the result, in row `p`, is lane `q mod 64` of head
  `q / 64` normalised: the normalised row of the block's row `p`, at `q`.
-/
import proofs.«103041_j13245679140988_1_alg».proof.Proof.Gen.KernelIdeal.Skeleton
import proofs.«103041_j13245679140988_1_alg».proof.Proof.NormBlock
import Idealize.ShloMosaic.Lib.ValueLayout

noncomputable section

namespace Cert.KernelIdeal.HeadNorm

open Idealize.ShloMosaic Idealize.ShloMosaic.ValueIdx Cert.KernelIdeal Cert.KernelIdeal.Gen Cert.HeadNormMlp

/-- Slice `h` of a block: its columns `64·h … 64·h + 63`. -/
def headSlice (v1 : FVec Ideal S256x1024 .f32) : Fin 16 → FVec Ideal S256x64 .f32 := fun
  | 0 => extractStridedSlice S256x64 ![0, 0] v1 Gen.slices_S256x1024_o0_0_S256x64
  | 1 => extractStridedSlice S256x64 ![0, 64] v1 Gen.slices_S256x1024_o0_64_S256x64
  | 2 => extractStridedSlice S256x64 ![0, 128] v1 Gen.slices_S256x1024_o0_128_S256x64
  | 3 => extractStridedSlice S256x64 ![0, 192] v1 Gen.slices_S256x1024_o0_192_S256x64
  | 4 => extractStridedSlice S256x64 ![0, 256] v1 Gen.slices_S256x1024_o0_256_S256x64
  | 5 => extractStridedSlice S256x64 ![0, 320] v1 Gen.slices_S256x1024_o0_320_S256x64
  | 6 => extractStridedSlice S256x64 ![0, 384] v1 Gen.slices_S256x1024_o0_384_S256x64
  | 7 => extractStridedSlice S256x64 ![0, 448] v1 Gen.slices_S256x1024_o0_448_S256x64
  | 8 => extractStridedSlice S256x64 ![0, 512] v1 Gen.slices_S256x1024_o0_512_S256x64
  | 9 => extractStridedSlice S256x64 ![0, 576] v1 Gen.slices_S256x1024_o0_576_S256x64
  | 10 => extractStridedSlice S256x64 ![0, 640] v1 Gen.slices_S256x1024_o0_640_S256x64
  | 11 => extractStridedSlice S256x64 ![0, 704] v1 Gen.slices_S256x1024_o0_704_S256x64
  | 12 => extractStridedSlice S256x64 ![0, 768] v1 Gen.slices_S256x1024_o0_768_S256x64
  | 13 => extractStridedSlice S256x64 ![0, 832] v1 Gen.slices_S256x1024_o0_832_S256x64
  | 14 => extractStridedSlice S256x64 ![0, 896] v1 Gen.slices_S256x1024_o0_896_S256x64
  | 15 => extractStridedSlice S256x64 ![0, 960] v1 Gen.slices_S256x1024_o0_960_S256x64
  | ⟨_ + 16, h⟩ => absurd h (Nat.not_lt.2 (Nat.le_add_left _ _))

/-- Entry `(p, j)` of slice `h` is the block's entry `(p, 64·h + j)`. -/
theorem headSlice_apply (v1 : FVec Ideal S256x1024 .f32) (h : Fin 16) (p : Fin 256) (j : Fin 64) :
    headSlice v1 h (ix2 p j) = v1 (ix2 p (headCol h j)) := by
  match h with
  | 0 => exact slice2_axis1_apply 0 v1 Gen.slices_S256x1024_o0_0_S256x64 p j (headCol 0 j) (by show 64 * 0 + j.val = 0 + j.val; omega)
  | 1 => exact slice2_axis1_apply 64 v1 Gen.slices_S256x1024_o0_64_S256x64 p j (headCol 1 j) (by show 64 * 1 + j.val = 64 + j.val; omega)
  | 2 => exact slice2_axis1_apply 128 v1 Gen.slices_S256x1024_o0_128_S256x64 p j (headCol 2 j) (by show 64 * 2 + j.val = 128 + j.val; omega)
  | 3 => exact slice2_axis1_apply 192 v1 Gen.slices_S256x1024_o0_192_S256x64 p j (headCol 3 j) (by show 64 * 3 + j.val = 192 + j.val; omega)
  | 4 => exact slice2_axis1_apply 256 v1 Gen.slices_S256x1024_o0_256_S256x64 p j (headCol 4 j) (by show 64 * 4 + j.val = 256 + j.val; omega)
  | 5 => exact slice2_axis1_apply 320 v1 Gen.slices_S256x1024_o0_320_S256x64 p j (headCol 5 j) (by show 64 * 5 + j.val = 320 + j.val; omega)
  | 6 => exact slice2_axis1_apply 384 v1 Gen.slices_S256x1024_o0_384_S256x64 p j (headCol 6 j) (by show 64 * 6 + j.val = 384 + j.val; omega)
  | 7 => exact slice2_axis1_apply 448 v1 Gen.slices_S256x1024_o0_448_S256x64 p j (headCol 7 j) (by show 64 * 7 + j.val = 448 + j.val; omega)
  | 8 => exact slice2_axis1_apply 512 v1 Gen.slices_S256x1024_o0_512_S256x64 p j (headCol 8 j) (by show 64 * 8 + j.val = 512 + j.val; omega)
  | 9 => exact slice2_axis1_apply 576 v1 Gen.slices_S256x1024_o0_576_S256x64 p j (headCol 9 j) (by show 64 * 9 + j.val = 576 + j.val; omega)
  | 10 => exact slice2_axis1_apply 640 v1 Gen.slices_S256x1024_o0_640_S256x64 p j (headCol 10 j) (by show 64 * 10 + j.val = 640 + j.val; omega)
  | 11 => exact slice2_axis1_apply 704 v1 Gen.slices_S256x1024_o0_704_S256x64 p j (headCol 11 j) (by show 64 * 11 + j.val = 704 + j.val; omega)
  | 12 => exact slice2_axis1_apply 768 v1 Gen.slices_S256x1024_o0_768_S256x64 p j (headCol 12 j) (by show 64 * 12 + j.val = 768 + j.val; omega)
  | 13 => exact slice2_axis1_apply 832 v1 Gen.slices_S256x1024_o0_832_S256x64 p j (headCol 13 j) (by show 64 * 13 + j.val = 832 + j.val; omega)
  | 14 => exact slice2_axis1_apply 896 v1 Gen.slices_S256x1024_o0_896_S256x64 p j (headCol 14 j) (by show 64 * 14 + j.val = 896 + j.val; omega)
  | 15 => exact slice2_axis1_apply 960 v1 Gen.slices_S256x1024_o0_960_S256x64 p j (headCol 15 j) (by show 64 * 15 + j.val = 960 + j.val; omega)
  | ⟨_ + 16, h⟩ => exact absurd h (Nat.not_lt.2 (Nat.le_add_left _ _))

/-- The sixteen normalised slices side by side, as the kernel builds them from the loaded block `v0`. -/
def normedBlock (v0 : Vec Ideal S256x1024 .f32) : FVec Ideal S256x1024 .f32 :=
  k0_pay2 (k0_pay4 v0) (k0_pay5 v0) (k0_pay6 v0) (k0_pay9 (k0_pay7 v0) (k0_pay8 v0)) (k0_pay10 (k0_pay4 v0)) (k0_pay15 (k0_pay13 (k0_pay4 v0)) (k0_pay14 (k0_pay4 v0)) (Scalar.ofBits .f32 0x3727C5AC#32)) (k0_pay16 (k0_pay4 v0)) (k0_pay17 (k0_pay4 v0)) (k0_pay20 (k0_pay18 (k0_pay4 v0)) (k0_pay19 (k0_pay4 v0))) (k0_pay21 (k0_pay4 v0)) (k0_pay26 (k0_pay24 (k0_pay4 v0)) (k0_pay25 (k0_pay4 v0)) (Scalar.ofBits .f32 0x3727C5AC#32)) (k0_pay27 (k0_pay4 v0)) (k0_pay28 (k0_pay4 v0)) (k0_pay31 (k0_pay29 (k0_pay4 v0)) (k0_pay30 (k0_pay4 v0))) (k0_pay32 (k0_pay4 v0)) (k0_pay1 (k0_pay35 (k0_pay4 v0)) (k0_pay36 (k0_pay4 v0)) (Scalar.ofBits .f32 0x3727C5AC#32))

/-- The same as a concatenation of one function of the head. -/
theorem normedBlock_eq (v0 : Vec Ideal S256x1024 .f32) :
    normedBlock v0 = concatenate S256x1024 1
      (List.ofFn fun h : Fin 16 => (⟨S256x64, normBlock (headSlice (k0_pay4 v0) h)⟩ : (s : Shape) × (s.Idx → Ideal .f32)))
      Gen.concatenates_S256x64_S256x64_S256x64_S256x64_S256x64_S256x64_S256x64_S256x64_S256x64_S256x64_S256x64_S256x64_S256x64_S256x64_S256x64_S256x64_S256x1024_d1 := rfl

/-- Column `q` of row `p` of the normalised block is the normalised row `p` of the loaded block, at `q`. -/
theorem normedBlock_apply (v0 : Vec Ideal S256x1024 .f32) (p : Fin 256) (q : Fin 1024) :
    normedBlock v0 (ix2 p q) = normRow (fun k => v0 (ix2 p k)) q := by
  rw [normedBlock_eq]
  refine (concatenate_ofFn_apply (t := S256x1024) (s₁ := S256x64) 1
    (fun h : Fin 16 => normBlock (headSlice (k0_pay4 v0) h)) Gen.concatenates_S256x64_S256x64_S256x64_S256x64_S256x64_S256x64_S256x64_S256x64_S256x64_S256x64_S256x64_S256x64_S256x64_S256x64_S256x64_S256x64_S256x1024_d1
    rfl 64 rfl (ix2 p q) (headOf q) rfl (ix2 p (laneOf q)) rfl (fun b hb => ?_)).trans ?_
  · match b with
    | ⟨0, _⟩ => rfl
    | ⟨1, _⟩ => exact absurd rfl hb
  · show normBlock (headSlice (k0_pay4 v0) (headOf q)) (ix2 p (laneOf q)) = _
    rw [normBlock_apply]
    unfold normRow
    refine congrArg (fun r => normEntry r (laneOf q)) (funext fun j => ?_)
    rw [headSlice_apply]
    show shapeCast S256x1024 v0 _ (ix2 p (headCol (headOf q) j)) = _
    rw [shapeCast_self]

end Cert.KernelIdeal.HeadNorm

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.BodyValue.lean ====
/-
  What the kernel body stores, read at an entry.

  The body multiplies the normalised block (256 × 1024) into the first weight block (1024 × 4096), clips the product
  below at zero and squares it, and multiplies that (256 × 4096) into the second weight block (4096 × 1024); both
  products start from zero, so each is the plain sum over the contracted coordinate.  With the block's row `p` as the
  row, `(f, k) ↦ w₁(k, f)` as the first matrix and `(e, f) ↦ w₂(f, e)` as the second, entry `(p, e)` of what is stored
  is the specification's entry `e`.
-/
import proofs.«103041_j13245679140988_1_alg».proof.Proof.Gen.KernelIdeal.Frame
import proofs.«103041_j13245679140988_1_alg».proof.Proof.NormRows
import proofs.«103041_j13245679140988_1_alg».proof.Proof.LibMatmulPlain

noncomputable section

namespace Cert.KernelIdeal.HeadNorm

open Idealize.ShloMosaic Idealize.ShloMosaic.ValueIdx Cert.KernelIdeal Cert.KernelIdeal.Gen Cert.HeadNormMlp

/-- Both products contract the left operand's columns with the right operand's rows. -/
theorem plain_first : Cert.Gcn.IsPlain dot_S256x1024_S1024x4096_S256x4096_1_0_0_1_n_n := ⟨rfl, rfl, rfl, rfl, rfl, rfl⟩
theorem plain_second : Cert.Gcn.IsPlain dot_S256x4096_S4096x1024_S256x1024_1_0_0_1_n_n := ⟨rfl, rfl, rfl, rfl, rfl, rfl⟩

/-- The two products with the clip and the square between them, at entry `(p, e)`. -/
theorem products_apply (hn : FVec Ideal S256x1024 .f32) (w1 : Vec Ideal S1024x4096 .bf16) (w2 : Vec Ideal S4096x1024 .bf16)
    (p : Fin 256) (e : Fin 1024) :
    k0_pay3 hn w1 w2 (ix2 p e)
      = ∑ f : Fin 4096, reluSq (∑ k : Fin 1024, hn (ix2 p k) * w1 (ix2 k f)) * w2 (ix2 f e) := by
  unfold k0_pay3
  refine (Cert.Gcn.matmul_plain_apply _ plain_second none _ _ p e).trans ?_
  refine Finset.sum_congr rfl fun f _ => ?_
  simp only [shapeCast_self]
  refine congrArg (· * w2 (ix2 f e)) ?_
  show max (matmul dot_S256x1024_S1024x4096_S256x4096_1_0_0_1_n_n none (truncf .bf16 hn Gen.bitsLt_bf16_f32)
        w1 (constant S256x4096 .f32 0x00000000#32) (ix2 p f))
      (Ideal.ofBits .f32 0x00000000#32)
    * max (matmul dot_S256x1024_S1024x4096_S256x4096_1_0_0_1_n_n none (truncf .bf16 hn Gen.bitsLt_bf16_f32)
        w1 (constant S256x4096 .f32 0x00000000#32) (ix2 p f))
      (Ideal.ofBits .f32 0x00000000#32) = _
  rw [Cert.Gcn.matmul_plain_apply _ plain_first none _ _ p f, Ideal.ofBits_zero_f32]
  rfl

theorem hz : (![0, 0] : Fin 2 → Nat) = fun _ => 0 := funext fun a => by fin_cases a <;> rfl

/-- Entry `(p, e)` of the output block the body leaves, from the three input blocks. -/
theorem out_block_apply (x0 : Vec Ideal S256x1024 .f32) (x1 : Vec Ideal S1024x4096 .bf16) (x2 : Vec Ideal S4096x1024 .bf16)
    (p : Fin 256) (e : Fin 1024) :
    out0_3 x0 x1 x2 (ix2 p e)
      = mlpEntry (fun k => x0 (ix2 p k)) (fun f k => x1 (ix2 k f)) (fun e f => x2 (ix2 f e)) e := by
  unfold out0_3
  rw [View.canon_unit_zero hz]
  simp only [View.ld_unit_zero (S := S256x1024) hz, View.ld_unit_zero (S := S1024x4096) hz, View.ld_unit_zero (S := S4096x1024) hz]
  show k0_pay3 (normedBlock x0) x1 x2 (ix2 p e) = _
  rw [products_apply]
  unfold mlpEntry hiddenEntry
  refine Finset.sum_congr rfl fun f _ => ?_
  refine congrArg (fun z => reluSq z * x2 (ix2 f e)) ?_
  refine Finset.sum_congr rfl fun k _ => ?_
  rw [normedBlock_apply]

end Cert.KernelIdeal.HeadNorm

end
-- ==== Proof.KernelArray.lean ====
/-
  The kernel's output array after the region, as one function of the arrays the region finds.

  The grid has 64 points.  Point `t` reads rows `256·t … 256·t + 255` of the 16384 × 1024 row array and the two weight
  blocks whole, and writes rows `256·t … 256·t + 255` of the output.  The 64 row bands tile the output, so the whole
  array ends as: entry `(r, e)` is the specification's entry `e` for row `r`, with `(f, k) ↦ w₁(k, f)` and
  `(e, f) ↦ w₂(f, e)` as the two matrices.
-/
import proofs.«103041_j13245679140988_1_alg».proof.Proof.BodyValue
import Idealize.ShloMosaic.Lib.Pipeline.Value

set_option maxRecDepth 16384

noncomputable section

namespace Cert.KernelIdeal.HeadNorm

open Idealize.ShloMosaic Idealize.ShloMosaic.TcCoe Idealize.ShloMosaic.ValueIdx Idealize.SL.Sem
open Cert.KernelIdeal Cert.KernelIdeal.Gen Cert.HeadNormMlp
open Idealize.ShloMosaic.Pipeline (Dat)

variable (m : (ℓ : Loc nD τ sig) → Buf (Elt Ideal) ℓ)

/-- The three arrays the region finds, and the three blocks at a point, at their literal types. -/
abbrev rowsArr (c : Dev nD) : Vec Ideal S16384x1024 .f32 := V m c main_v46
abbrev w1Arr (c : Dev nD) : Vec Ideal S1024x4096 .bf16 := V m c main_v44
abbrev w2Arr (c : Dev nD) : Vec Ideal S4096x1024 .bf16 := V m c main_v45
abbrev rowsBlk (c : Dev nD) (t : Fin cfg0.N) : Vec Ideal S256x1024 .f32 := iblk m c 0 t
abbrev w1Blk (c : Dev nD) (t : Fin cfg0.N) : Vec Ideal S1024x4096 .bf16 := iblk m c 1 t
abbrev w2Blk (c : Dev nD) (t : Fin cfg0.N) : Vec Ideal S4096x1024 .bf16 := iblk m c 2 t

/-- The output array: row `r` of the rows through the two weight arrays. -/
def outArr (c : Dev nD) : Vec Ideal S16384x1024 .f32 := fun i =>
  mlpEntry (fun k => rowsArr m c (ix2 (i 0) k)) (fun f k => w1Arr m c (ix2 k f)) (fun e f => w2Arr m c (ix2 f e)) (i 1)

/-- The index maps over the grid: the row windows move one band per point, the weight windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of band `t`. -/
def bandRow (t : Fin cfg0.N) (p : Fin 256) : Fin 16384 :=
  ⟨256 * t.val + p.val, by have h : t.val < 64 := N_0 ▸ t.isLt; have := p.isLt; omega⟩

/-- The row block at point `t` is band `t` of the row array. -/
theorem rowsBlk_apply (c : Dev nD) (t : Fin cfg0.N) (p : Fin 256) (k : Fin 1024) :
    rowsBlk m c t (ix2 p k) = rowsArr m c (ix2 (bandRow t p) k) := by
  obtain ⟨e0, e1, -⟩ := idx_facts t
  show V m c main_v46 (((cfg0.win 0).blk t).view.emb (ix2 p k)) = V m c main_v46 (ix2 (bandRow t p) k)
  refine congrArg (V m c main_v46) (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- The weight blocks at any point are the weight arrays whole. -/
theorem w1Blk_apply (c : Dev nD) (t : Fin cfg0.N) (k : Fin 1024) (f : Fin 4096) :
    w1Blk m c t (ix2 k f) = w1Arr m c (ix2 k f) := by
  obtain ⟨-, -, e0, e1, -⟩ := idx_facts t
  show V m c main_v44 (((cfg0.win 1).blk t).view.emb (ix2 k f)) = V m c main_v44 (ix2 k f)
  refine congrArg (V m c main_v44) (funext fun a => Fin.ext ?_)
  match a with
  | ⟨0, _⟩ => show win0_1.index t (0 : Fin 2) * 1024 + 1 * k.val = k.val; omega
  | ⟨1, _⟩ => show win0_1.index t (1 : Fin 2) * 4096 + 1 * f.val = f.val; omega

theorem w2Blk_apply (c : Dev nD) (t : Fin cfg0.N) (f : Fin 4096) (e : Fin 1024) :
    w2Blk m c t (ix2 f e) = w2Arr m c (ix2 f e) := by
  obtain ⟨-, -, -, -, e0, e1, -⟩ := idx_facts t
  show V m c main_v45 (((cfg0.win 2).blk t).view.emb (ix2 f e)) = V m c main_v45 (ix2 f e)
  refine congrArg (V m c main_v45) (funext fun a => Fin.ext ?_)
  match a with
  | ⟨0, _⟩ => show win0_2.index t (0 : Fin 2) * 4096 + 1 * f.val = f.val; omega
  | ⟨1, _⟩ => show win0_2.index t (1 : Fin 2) * 1024 + 1 * e.val = e.val; omega

/-- What point `t` writes back is band `t` of the output array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after0_3]
  obtain ⟨-, -, -, -, -, -, e0, e1⟩ := idx_facts t
  funext j
  show out0_3 (rowsBlk m c t) (w1Blk m c t) (w2Blk m c t) j = outArr m c (((cfg0.win 3).blk t).view.emb j)
  have hj : j = ix2 (j 0) (j 1) := eq_ix2 j
  have hemb : ((cfg0.win 3).blk t).view.emb j = ix2 (bandRow t (j 0)) (j 1) := funext fun a => Fin.ext (by
    match a with
    | ⟨0, _⟩ => show win0_3.index t (0 : Fin 2) * 256 + 1 * (j 0).val = 256 * t.val + (j 0).val; omega
    | ⟨1, _⟩ => show win0_3.index t (1 : Fin 2) * 1024 + 1 * (j 1).val = (j 1).val; omega)
  rw [hemb]
  refine (congrArg (out0_3 (rowsBlk m c t) (w1Blk m c t) (w2Blk m c t)) hj).trans ?_
  refine (out_block_apply (rowsBlk m c t) (w1Blk m c t) (w2Blk m c t) (j 0) (j 1)).trans ?_
  unfold outArr
  show mlpEntry (fun k => rowsBlk m c t (ix2 (j 0) k)) (fun f k => w1Blk m c t (ix2 k f)) (fun e f => w2Blk m c t (ix2 f e)) (j 1)
    = mlpEntry (fun k => rowsArr m c (ix2 (bandRow t (j 0)) k)) (fun f k => w1Arr m c (ix2 k f)) (fun e f => w2Arr m c (ix2 f e)) (j 1)
  have hrows : ∀ k : Fin 1024, rowsBlk m c t (ix2 (j 0) k) = rowsArr m c (ix2 (bandRow t (j 0)) k) :=
    fun k => rowsBlk_apply m c t (j 0) k
  simp only [hrows, w1Blk_apply, w2Blk_apply]

/-- An index of the output array lies in point `t`'s block exactly when each coordinate is in the block's range. -/
theorem mem_blk (t : Fin cfg0.N) (i : S16384x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v47).slice (win0_3.rect t)).set ↔ _
  rw [View.set_slice_whole, Rect.mem_set_unit]
  exact Iff.rfl

/-- Every index of the output array lies in the block of the point its row band names. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨-, -, -, -, -, -, e0, e1⟩ := idx_facts t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

/-- The output array after the region. -/
theorem final (c : Dev nD) : (dats m 0 c).arrAt 3 cfg0.N = outArr m c :=
  (dats m 0 c).arrAt_eq_of_cover 3 (outArr m c) (fun t _ => flushed_eq m c t) cover

end Cert.KernelIdeal.HeadNorm

end
-- ==== Proof.RegionEntry.lean ====
/-
  The three arrays as the kernel region finds them.

  Before the region the host reshapes `x` from 4 × 4096 × 1024 to 16384 × 1024 (same row-major order), multiplies each
  weight matrix by its 0/1 mask, and transposes the two products.  The masks are computed from index arithmetic alone
  and depend on no input; they are kept here as the closed terms the reference program also computes, unopened.
-/
import proofs.«103041_j13245679140988_1_alg».proof.Proof.Gen.KernelIdeal.Frame
import proofs.«103041_j13245679140988_1_alg».proof.Proof.Gen.ReferenceIdeal.Read
import Idealize.ShloMosaic.Lib.StableHlo.Run
import Idealize.ShloMosaic.Lib.ValueLayout

noncomputable section

namespace Cert.KernelIdeal.HeadNorm

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The two masks: 4096 × 1024 for the first weight matrix, 1024 × 4096 for the second. -/
abbrev mask₁ : FVec Ideal S4096x1024 .f32 := Cert.ReferenceIdeal.Read.val_main_v19 (F := Ideal)
abbrev mask₂ : FVec Ideal S1024x4096 .f32 := Cert.ReferenceIdeal.Read.val_main_v39 (F := Ideal)

/-- The rows: `x` reshaped. -/
theorem entry_rows (c : Dev nD) :
    (V m c main_v46 : S16384x1024.Idx → Ideal .f32)
      = shapeCast S16384x1024 (m ((c : Thread nD τ).loc main_arg0)) Gen.shapeCasts_S4x4096x1024_S16384x1024 := by
  show StableHlo.after hostOps0 (fun b => m (c, b)) (Proc.devRef .tc main_v46) = _
  after_results
  rfl

set_option maxHeartbeats 4000000 in
/-- The first weight block: the masked first matrix, transposed. -/
theorem entry_w1 (c : Dev nD) :
    (V m c main_v44 : S1024x4096.Idx → Ideal .bf16)
      = transpose S1024x4096 [1, 0]
          (truncf .bf16 (mulf (m ((c : Thread nD τ).loc main_arg1)) mask₁) Gen.bitsLt_bf16_f32)
          Gen.transposes_S4096x1024_S1024x4096_1_0 := by
  show StableHlo.after hostOps0 (fun b => m (c, b)) (Proc.devRef .tc main_v44) = _
  after_results
  rfl

set_option maxHeartbeats 4000000 in
/-- The second weight block: the masked second matrix, transposed. -/
theorem entry_w2 (c : Dev nD) :
    (V m c main_v45 : S4096x1024.Idx → Ideal .bf16)
      = transpose S4096x1024 [1, 0]
          (truncf .bf16 (mulf (m ((c : Thread nD τ).loc main_arg2)) mask₂) Gen.bitsLt_bf16_f32)
          Gen.transposes_S1024x4096_S4096x1024_1_0 := by
  show StableHlo.after hostOps0 (fun b => m (c, b)) (Proc.devRef .tc main_v45) = _
  after_results
  rfl

end Cert.KernelIdeal.HeadNorm

end
-- ==== Proof.KernelResult.lean ====
/-
  The kernel program's result, read at an entry, and its run.

  After the region the host reshapes the 16384 × 1024 output back to 4 × 4096 × 1024, so entry `(b, s, e)` of the result
  is entry `(4096·b + s, e)` of the output array.  Row `4096·b + s` of the row array is `x(b, s, ·)`; the first weight
  array at `(k, f)` is the masked first matrix at `(f, k)`, the second at `(f, e)` the masked second matrix at `(e, f)`.
  So the result at `(b, s, e)` is the specification's entry `e` for the row `x(b, s, ·)` and the two masked matrices.
-/
import proofs.«103041_j13245679140988_1_alg».proof.Proof.KernelArray
import proofs.«103041_j13245679140988_1_alg».proof.Proof.RegionEntry

set_option maxRecDepth 16384

noncomputable section

namespace Cert.KernelIdeal.HeadNorm

open Idealize.ShloMosaic Idealize.ShloMosaic.TcCoe Idealize.ShloMosaic.ValueIdx Idealize.SL.Sem
open Cert.KernelIdeal Cert.KernelIdeal.Gen Cert.HeadNormMlp

variable (m : (ℓ : Loc nD τ sig) → Buf (Elt Ideal) ℓ) (ρ : Dev nD → PrngReg)

/-- The program's result array: the output array reshaped. -/
def resultArr (c : Dev nD) : Vec Ideal S4x4096x1024 .f32 :=
  shapeCast S4x4096x1024 (outArr m c) Gen.shapeCasts_S16384x1024_S4x4096x1024

/-- What the host line after the region leaves in the result buffer. -/
theorem tail_result (c : Dev nD) :
    Pipeline.afterTail₀ cfgs (dats m) 0 (V0 m) [hostOps1] c main_v48 = resultArr m c := by
  unfold Pipeline.afterTail₀
  show StableHlo.after hostOps1 _ (Proc.devRef .tc main_v48) = _
  after_results
  exact congrArg (fun A => shapeCast S4x4096x1024 A Gen.shapeCasts_S16384x1024_S4x4096x1024)
    ((Pipeline.withArrays_arr spec0 launch0.win.arr_inj c _ _ 3).trans (final m c))

/-- The three argument arrays at their literal types. -/
abbrev xArg (c : Dev nD) : Vec Ideal S4x4096x1024 .f32 := m ((c : Thread nD τ).loc main_arg0)
abbrev w1Arg (c : Dev nD) : Vec Ideal S4096x1024 .f32 := m ((c : Thread nD τ).loc main_arg1)
abbrev w2Arg (c : Dev nD) : Vec Ideal S1024x4096 .f32 := m ((c : Thread nD τ).loc main_arg2)

/-- Row `4096·b + s`. -/
def flatRow (b : Fin 4) (s : Fin 4096) : Fin 16384 := ⟨4096 * b.val + s.val, by have := b.isLt; have := s.isLt; omega⟩

theorem rowsArr_apply (c : Dev nD) (b : Fin 4) (s : Fin 4096) (k : Fin 1024) :
    rowsArr m c (ix2 (flatRow b s) k) = xArg m c (ix3 b s k) := by
  show (V m c main_v46 : S16384x1024.Idx → Ideal .f32) (ix2 (flatRow b s) k) = _
  rw [entry_rows]
  exact shapeCast_apply (xArg m c) Gen.shapeCasts_S4x4096x1024_S16384x1024 (ix2 (flatRow b s) k) (ix3 b s k) (by
    rw [Shape.rowMajor_val_three, Shape.rowMajor_val_two]
    show (b.val * 4096 + s.val) * 1024 + k.val = (4096 * b.val + s.val) * 1024 + k.val
    omega)

theorem w1Arr_apply (c : Dev nD) (k : Fin 1024) (f : Fin 4096) :
    w1Arr m c (ix2 k f) = w1Arg m c (ix2 f k) * mask₁ (ix2 f k) := by
  show (V m c main_v44 : S1024x4096.Idx → Ideal .bf16) (ix2 k f) = _
  rw [entry_w1, transpose_ix2_apply]
  rfl

theorem w2Arr_apply (c : Dev nD) (f : Fin 4096) (e : Fin 1024) :
    w2Arr m c (ix2 f e) = w2Arg m c (ix2 e f) * mask₂ (ix2 e f) := by
  show (V m c main_v45 : S4096x1024.Idx → Ideal .bf16) (ix2 f e) = _
  rw [entry_w2, transpose_ix2_apply]
  rfl

/-- The result at `(b, s, e)`. -/
theorem resultArr_apply (c : Dev nD) (b : Fin 4) (s : Fin 4096) (e : Fin 1024) :
    resultArr m c (ix3 b s e)
      = mlpEntry (fun k => xArg m c (ix3 b s k))
          (fun f k => w1Arg m c (ix2 f k) * mask₁ (ix2 f k))
          (fun e f => w2Arg m c (ix2 e f) * mask₂ (ix2 e f)) e := by
  unfold resultArr
  refine (shapeCast_apply (outArr m c) Gen.shapeCasts_S16384x1024_S4x4096x1024 (ix3 b s e) (ix2 (flatRow b s) e) (by
    rw [Shape.rowMajor_val_two, Shape.rowMajor_val_three]
    show (4096 * b.val + s.val) * 1024 + e.val = (b.val * 4096 + s.val) * 1024 + e.val
    omega)).trans ?_
  unfold outArr
  show mlpEntry (fun k => rowsArr m c (ix2 (flatRow b s) k)) (fun f k => w1Arr m c (ix2 k f)) (fun e f => w2Arr m c (ix2 f e)) e = _
  have e0 : (fun k => rowsArr m c (ix2 (flatRow b s) k)) = fun k => xArg m c (ix3 b s k) :=
    funext fun k => rowsArr_apply m c b s k
  have e1 : (fun (f : Fin 4096) (k : Fin 1024) => w1Arr m c (ix2 k f)) = fun f k => w1Arg m c (ix2 f k) * mask₁ (ix2 f k) :=
    funext fun f => funext fun k => w1Arr_apply m c k f
  have e2 : (fun (e : Fin 1024) (f : Fin 4096) => w2Arr m c (ix2 f e)) = fun e f => w2Arg m c (ix2 e f) * mask₂ (ix2 e f) :=
    funext fun e => funext fun f => w2Arr_apply m c f e
  exact congrFun (congr (congr (congrArg mlpEntry e0) e1) e2) e

/-- The kernel program's run: it ends with the result buffer at `resultArr` and the three arguments as launched. -/
theorem run : θ_run defs (onTc (τ := τ) (main (F := Ideal))) ⟨m, fun _ => 0, ρ⟩ (fun r => ∀ c : Dev nD,
      r.2.mem ((c.tc : Thread nD τ).loc main_v48) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v48 (Pipeline.mem_restRefs_of main_v48 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.HeadNorm

end
-- ==== Proof.RefValue.lean ====
/-
  The reference's result, read at an entry.

  The reference reshapes `x` to 4 × 4096 × 16 × 64, so that entry `(b, s, h, j)` is `x(b, s, 64·h + j)`; takes each
  head's mean and variance over the last axis, both as sums divided by 64; normalises; reshapes back, so that column
  `k` is head `k / 64`, lane `k mod 64`; and contracts twice, first with the masked first matrix over its second
  axis, then (after the clip at zero and the square) with the masked second matrix over its second axis.  Read at
  `(b, s, e)`, that is the specification's entry `e` for the row `x(b, s, ·)`.
-/
import proofs.«103041_j13245679140988_1_alg».proof.Proof.Gen.ReferenceIdeal.Read
import proofs.«103041_j13245679140988_1_alg».proof.Proof.Spec

noncomputable section

namespace Cert.ReferenceIdeal.RefValue

open Idealize.ShloMosaic Idealize.ShloMosaic.ValueIdx Cert.ReferenceIdeal Cert.ReferenceIdeal.Gen Cert.ReferenceIdeal.Read
open Cert.HeadNormMlp

/-! ## Where each stage reads its operand -/

theorem idx40 (b : Fin 4) (s : Fin 4096) (h : Fin 16) (j : Fin 64) :
    idx_main_v40 (ix4 b s h j) = ix3 b s (headCol h j) := funext fun a => Fin.ext (by
  have hb := b.isLt; have hs := s.isLt; have hh := h.isLt; have hj := j.isLt
  match a with
  | ⟨0, _⟩ => show (((b.val * 4096 + s.val) * 16 + h.val) * 64 + j.val) / 4194304 = b.val; omega
  | ⟨1, _⟩ => show (((b.val * 4096 + s.val) * 16 + h.val) * 64 + j.val) / 1024 % 4096 = s.val; omega
  | ⟨2, _⟩ => show (((b.val * 4096 + s.val) * 16 + h.val) * 64 + j.val) % 1024 = 64 * h.val + j.val; omega)

theorem idx41 (b : Fin 4) (s : Fin 4096) (h : Fin 16) (k : Fin 64) : idx_main_v41 (ix3 b s h) k = ix4 b s h k :=
  funext fun a => Fin.ext (by match a with | ⟨0, _⟩ => rfl | ⟨1, _⟩ => rfl | ⟨2, _⟩ => rfl | ⟨3, _⟩ => rfl)
theorem idx48 (b : Fin 4) (s : Fin 4096) (h : Fin 16) (k : Fin 64) : idx_main_v48 (ix3 b s h) k = ix4 b s h k :=
  funext fun a => Fin.ext (by match a with | ⟨0, _⟩ => rfl | ⟨1, _⟩ => rfl | ⟨2, _⟩ => rfl | ⟨3, _⟩ => rfl)
theorem idx42 (b : Fin 4) (s : Fin 4096) (h : Fin 16) (z : Fin 1) : idx_main_v42 (ix4 b s h z) = ix3 b s h :=
  funext fun a => Fin.ext (by match a with | ⟨0, _⟩ => rfl | ⟨1, _⟩ => rfl | ⟨2, _⟩ => rfl)
theorem idx49 (b : Fin 4) (s : Fin 4096) (h : Fin 16) (z : Fin 1) : idx_main_v49 (ix4 b s h z) = ix3 b s h :=
  funext fun a => Fin.ext (by match a with | ⟨0, _⟩ => rfl | ⟨1, _⟩ => rfl | ⟨2, _⟩ => rfl)
theorem idx45 (b : Fin 4) (s : Fin 4096) (h : Fin 16) (j : Fin 64) :
    idx_main_v45 (ix4 b s h j) = ix4 b s h (⟨0, Nat.one_pos⟩ : Fin 1) :=
  funext fun a => Fin.ext (by match a with | ⟨0, _⟩ => rfl | ⟨1, _⟩ => rfl | ⟨2, _⟩ => rfl | ⟨3, _⟩ => rfl)
theorem idx52 (b : Fin 4) (s : Fin 4096) (h : Fin 16) (j : Fin 64) :
    idx_main_v52 (ix4 b s h j) = ix4 b s h (⟨0, Nat.one_pos⟩ : Fin 1) :=
  funext fun a => Fin.ext (by match a with | ⟨0, _⟩ => rfl | ⟨1, _⟩ => rfl | ⟨2, _⟩ => rfl | ⟨3, _⟩ => rfl)
theorem idx57 (b : Fin 4) (s : Fin 4096) (h : Fin 16) (j : Fin 64) :
    idx_main_v57 (ix4 b s h j) = ix4 b s h (⟨0, Nat.one_pos⟩ : Fin 1) :=
  funext fun a => Fin.ext (by match a with | ⟨0, _⟩ => rfl | ⟨1, _⟩ => rfl | ⟨2, _⟩ => rfl | ⟨3, _⟩ => rfl)

theorem idx59 (b : Fin 4) (s : Fin 4096) (k : Fin 1024) :
    idx_main_v59 (ix3 b s k) = ix4 b s (headOf k) (laneOf k) := funext fun a => Fin.ext (by
  have hb := b.isLt; have hs := s.isLt; have hk := k.isLt
  match a with
  | ⟨0, _⟩ => show ((b.val * 4096 + s.val) * 1024 + k.val) / 4194304 = b.val; omega
  | ⟨1, _⟩ => show ((b.val * 4096 + s.val) * 1024 + k.val) / 1024 % 4096 = s.val; omega
  | ⟨2, _⟩ => show ((b.val * 4096 + s.val) * 1024 + k.val) / 64 % 16 = k.val / 64; omega
  | ⟨3, _⟩ => show ((b.val * 4096 + s.val) * 1024 + k.val) % 64 = k.val % 64; omega)

theorem lidx61 (b : Fin 4) (s : Fin 4096) (f : Fin 4096) (k : Fin 1024) : lidx_main_v61 (ix3 b s f) k = ix3 b s k :=
  funext fun a => Fin.ext (by match a with | ⟨0, _⟩ => rfl | ⟨1, _⟩ => rfl | ⟨2, _⟩ => rfl)
theorem ridx61 (b : Fin 4) (s : Fin 4096) (f : Fin 4096) (k : Fin 1024) : ridx_main_v61 (ix3 b s f) k = ix2 f k :=
  funext fun a => Fin.ext (by match a with | ⟨0, _⟩ => rfl | ⟨1, _⟩ => rfl)
theorem lidx65 (b : Fin 4) (s : Fin 4096) (e : Fin 1024) (f : Fin 4096) : lidx_main_v65 (ix3 b s e) f = ix3 b s f :=
  funext fun a => Fin.ext (by match a with | ⟨0, _⟩ => rfl | ⟨1, _⟩ => rfl | ⟨2, _⟩ => rfl)
theorem ridx65 (b : Fin 4) (s : Fin 4096) (e : Fin 1024) (f : Fin 4096) : ridx_main_v65 (ix3 b s e) f = ix2 e f :=
  funext fun a => Fin.ext (by match a with | ⟨0, _⟩ => rfl | ⟨1, _⟩ => rfl)

/-! ## The stages at an entry -/

variable (x0 : FVec Ideal S4x4096x1024 .f32) (x1 : FVec Ideal S4096x1024 .f32) (x2 : FVec Ideal S1024x4096 .f32)

/-- Head `h` of row `(b, s)`. -/
abbrev headRow (b : Fin 4) (s : Fin 4096) (h : Fin 16) : Fin 64 → EReal := fun j => x0 (ix3 b s (headCol h j))

theorem split_at (b : Fin 4) (s : Fin 4096) (h : Fin 16) (j : Fin 64) :
    val_main_v40 (F := Ideal) x0 (ix4 b s h j) = headRow x0 b s h j := by
  rw [val_main_v40_apply, idx40]

theorem mean_at (b : Fin 4) (s : Fin 4096) (h : Fin 16) (z : Fin 1) :
    val_main_v44 (F := Ideal) x0 (ix4 b s h z) = mean64 (headRow x0 b s h) := by
  rw [val_main_v44_apply, val_main_v42_apply, idx42, val_main_v41_apply, val_main_v43_apply, val_main_cst_7_apply,
    val_main_cst_apply]
  simp only [idx41, split_at, Ideal.hostDivf_def, Ideal.ofBits_def, Ideal.ofBits_zero_f32, zero_add]
  rfl

theorem dev_at (b : Fin 4) (s : Fin 4096) (h : Fin 16) (j : Fin 64) :
    val_main_v46 (F := Ideal) x0 (ix4 b s h j) = headRow x0 b s h j - mean64 (headRow x0 b s h) := by
  rw [val_main_v46_apply, split_at, val_main_v45_apply, idx45, mean_at]
  rfl

theorem var_at (b : Fin 4) (s : Fin 4096) (h : Fin 16) (z : Fin 1) :
    val_main_v51 (F := Ideal) x0 (ix4 b s h z)
      = mean64 (fun j => (headRow x0 b s h j - mean64 (headRow x0 b s h)) * (headRow x0 b s h j - mean64 (headRow x0 b s h))) := by
  rw [val_main_v51_apply, val_main_v49_apply, idx49, val_main_v48_apply, val_main_v50_apply, val_main_cst_9_apply,
    val_main_cst_8_apply]
  simp only [idx48, val_main_v47_apply, dev_at, Ideal.hostDivf_def, Ideal.mulf_def, Ideal.ofBits_def, Ideal.ofBits_zero_f32,
    zero_add]
  rfl

theorem norm_at (b : Fin 4) (s : Fin 4096) (h : Fin 16) (d : Fin 64) :
    val_main_v58 (F := Ideal) x0 (ix4 b s h d) = normEntry (headRow x0 b s h) d := by
  rw [val_main_v58_apply, val_main_v53_apply, split_at, val_main_v52_apply, idx52, mean_at, val_main_v57_apply, idx57,
    val_main_v56_apply, val_main_v55_apply, var_at, val_main_v54_apply, val_main_cst_10_apply]
  rfl

theorem normRow_at (b : Fin 4) (s : Fin 4096) (k : Fin 1024) :
    val_main_v59 (F := Ideal) x0 (ix3 b s k) = normRow (fun k => x0 (ix3 b s k)) k := by
  rw [val_main_v59_apply, idx59, norm_at]
  rfl

theorem hidden_at (b : Fin 4) (s : Fin 4096) (f : Fin 4096) :
    val_main_v61 (F := Ideal) x0 x1 (ix3 b s f)
      = hiddenEntry (fun k => x0 (ix3 b s k)) (fun f k => x1 (ix2 f k) * val_main_v19 (F := Ideal) (ix2 f k)) f := by
  rw [val_main_v61_apply]
  unfold hiddenEntry
  refine Finset.sum_congr rfl fun k _ => ?_
  rw [lidx61, ridx61, normRow_at, val_main_v60_apply]
  rfl

/-- The reference's result at `(b, s, e)`. -/
theorem result_at (b : Fin 4) (s : Fin 4096) (e : Fin 1024) :
    val_main_v65 (F := Ideal) x0 x1 x2 (ix3 b s e)
      = mlpEntry (fun k => x0 (ix3 b s k)) (fun f k => x1 (ix2 f k) * val_main_v19 (F := Ideal) (ix2 f k))
          (fun e f => x2 (ix2 e f) * val_main_v39 (F := Ideal) (ix2 e f)) e := by
  rw [val_main_v65_apply]
  unfold mlpEntry
  refine Finset.sum_congr rfl fun f _ => ?_
  rw [lidx65, ridx65, val_main_v63_apply, val_main_v62_apply, hidden_at, val_main_call0_v0_apply, val_main_call0_cst_apply,
    val_main_v64_apply]
  simp only [Ideal.ofBits_def, Ideal.ofBits_zero_f32, Ideal.maximumf_def, Ideal.mulf_def]
  rfl

end Cert.ReferenceIdeal.RefValue

end
-- ==== Proof.lean ====
/-
  The certificate: a fused block of per-head normalisation, a masked product, a clip-and-square, and a second
  masked product, against the same computation written with whole-array operations.

  On the extended reals both programs send each row `x(b, s, ·)` of 1024 entries to the same 1024 entries: the row
  is normalised head by head (16 heads of 64; mean and variance as sums divided by 64; deviation times the reciprocal
  square root of variance plus offset), multiplied into the first weight matrix times its 0/1 mask, clipped below at
  zero and squared, and multiplied into the second weight matrix times its mask.  The kernel does this on bands of
  256 rows with the weights transposed beforehand and its heads cut out of the band as slices; the reference does it
  on the whole array with the heads as a fourth axis.  Changes of float format are the identity here, a product into
  a zero accumulator is the plain sum of products, and the masks are the same index arithmetic in both programs, so
  the two results agree entry by entry; no law is used that would need the inputs finite.

  The three frames are the generated ones (the reference's is its generated run with the result dropped), and the
  idealisation rewrote nothing, so its claim is trivial.
-/
import proofs.«103041_j13245679140988_1_alg».proof.Defs
import proofs.«103041_j13245679140988_1_alg».proof.Proof.Gen.Kernel
import proofs.«103041_j13245679140988_1_alg».proof.Proof.Gen.Kernel.Skeleton
import proofs.«103041_j13245679140988_1_alg».proof.Proof.Gen.Kernel.Launch
import proofs.«103041_j13245679140988_1_alg».proof.Proof.Gen.Kernel.Points
import proofs.«103041_j13245679140988_1_alg».proof.Proof.Gen.Kernel.Frame
import proofs.«103041_j13245679140988_1_alg».proof.Proof.Gen.KernelIdeal
import proofs.«103041_j13245679140988_1_alg».proof.Proof.Gen.KernelIdeal.Skeleton
import proofs.«103041_j13245679140988_1_alg».proof.Proof.Gen.KernelIdeal.Launch
import proofs.«103041_j13245679140988_1_alg».proof.Proof.Gen.KernelIdeal.Points
import proofs.«103041_j13245679140988_1_alg».proof.Proof.Gen.KernelIdeal.Frame
import proofs.«103041_j13245679140988_1_alg».proof.Proof.Gen.ReferenceIdeal
import proofs.«103041_j13245679140988_1_alg».proof.Proof.Gen.Pre_finite_inputs
import proofs.«103041_j13245679140988_1_alg».proof.Proof.Gen.ReferenceIdeal.Run
import proofs.«103041_j13245679140988_1_alg».proof.Proof.Gen.ReferenceIdeal.Read
import proofs.«103041_j13245679140988_1_alg».proof.Proof.KernelResult
import proofs.«103041_j13245679140988_1_alg».proof.Proof.RefValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Entry `(b, s, e)` of each result is the specification's entry `e` for the row `x(b, s, ·)` and the two masked
    matrices, so the two agree there. -/
theorem results_agree_at (m : (ℓ : Loc Cert.KernelIdeal.nD Cert.KernelIdeal.τ Cert.KernelIdeal.sig) → Buf (Elt Ideal) ℓ)
    (c : Dev Cert.KernelIdeal.nD) (b : Fin 4) (s : Fin 4096) (e : Fin 1024) :
    Cert.ReferenceIdeal.Read.val_main_v65 (F := Ideal) (Cert.KernelIdeal.HeadNorm.xArg m c)
        (Cert.KernelIdeal.HeadNorm.w1Arg m c) (Cert.KernelIdeal.HeadNorm.w2Arg m c) (ix3 b s e)
      = Cert.KernelIdeal.HeadNorm.resultArr m c (ix3 b s e) := by
  rw [Cert.ReferenceIdeal.RefValue.result_at, Cert.KernelIdeal.HeadNorm.resultArr_apply]

/-- The two result arrays are one function of the arguments. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v65 (F := Ideal) (Cert.KernelIdeal.HeadNorm.xArg m c)
        (Cert.KernelIdeal.HeadNorm.w1Arg m c) (Cert.KernelIdeal.HeadNorm.w2Arg m c)
      = Cert.KernelIdeal.HeadNorm.resultArr m c := by
  refine funext fun i => ?_
  have hi : i = ix3 (⟨(i 0).val, (i 0).isLt⟩ : Fin 4) (⟨(i 1).val, (i 1).isLt⟩ : Fin 4096) (⟨(i 2).val, (i 2).isLt⟩ : Fin 1024) :=
    funext fun a => by match a with | ⟨0, _⟩ => rfl | ⟨1, _⟩ => rfl | ⟨2, _⟩ => rfl
  exact (congrArg (Cert.ReferenceIdeal.Read.val_main_v65 (F := Ideal) (Cert.KernelIdeal.HeadNorm.xArg m c)
      (Cert.KernelIdeal.HeadNorm.w1Arg m c) (Cert.KernelIdeal.HeadNorm.w2Arg m c)) hi).trans
    ((results_agree_at m c _ _ _).trans (congrArg (Cert.KernelIdeal.HeadNorm.resultArr m c) hi).symm)

theorem algebraic : Cert.algebraic_KernelIdeal_ReferenceIdeal := by
  intro m ρ m' ρ' _ hagree
  refine ⟨fun c => Cert.KernelIdeal.HeadNorm.resultArr m c, Cert.KernelIdeal.HeadNorm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2.1, (hagree c).2.2]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
